-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 82
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S1x64, .f32⟩
  | .hbm, ⟨81, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Spec.lean ====
import Idealize.ShloMosaic.PureOps.Ideal
import Idealize.ShloMosaic.Lib.ValueIdx

/-! # The three dense steps of the two-layer graph convolution, entry by entry

Both programs send the node features through the same edge-list arithmetic (degrees, normalisation, gathers and
scatter-adds on the host); they differ only in how the three dense steps between those stretches are carried out.
Here each dense step is written once, as a function of whole arrays read at an entry, over the extended reals:

* `featProd x w`      — the feature transform `x · w`, entry `(r, q)` the sum over `k` of `x (r, k) * w (k, q)`;
* `hiddenProd h b w`  — bias, rectifier and second transform: entry `(r, q)` the sum over `k` of
                         `max (h (r, k) + b k) 0 * w (k, q)`;
* `addBias p b`       — the last bias: entry `(r, q)` is `p (r, q) + b q`.
-/

noncomputable section

open scoped BigOperators

namespace Cert.Gcn

open Idealize.ShloMosaic Idealize.ShloMosaic.ValueIdx

/-- The feature transform: `x · w` at an entry. -/
def featProd (x : (⟨2, ![100000, 128]⟩ : Shape).Idx → EReal) (w : (⟨2, ![128, 128]⟩ : Shape).Idx → EReal) :
    (⟨2, ![100000, 128]⟩ : Shape).Idx → EReal :=
  fun j => ∑ k : Fin 128, x (ix2 (j 0) k) * w (ix2 k (j 1))

/-- Bias, rectifier and the second transform at an entry. -/
def hiddenProd (h : (⟨2, ![100000, 128]⟩ : Shape).Idx → EReal) (b : Fin 128 → EReal)
    (w : (⟨2, ![128, 64]⟩ : Shape).Idx → EReal) : (⟨2, ![100000, 64]⟩ : Shape).Idx → EReal :=
  fun j => ∑ k : Fin 128, max (h (ix2 (j 0) k) + b k) 0 * w (ix2 k (j 1))

/-- The last bias added to every row. -/
def addBias (p : (⟨2, ![100000, 64]⟩ : Shape).Idx → EReal) (b : Fin 64 → EReal) :
    (⟨2, ![100000, 64]⟩ : Shape).Idx → EReal :=
  fun j => p j + b (j 1)

end Cert.Gcn

end
-- ==== Proof.Region0.lean ====
import proofs.«163805_j23673859735705_1_alg».proof.Proof.Gen.KernelIdeal.Frame
import proofs.«163805_j23673859735705_1_alg».proof.Proof.LibPlainDot
import proofs.«163805_j23673859735705_1_alg».proof.Proof.Spec
import Idealize.ShloMosaic.Lib.Pipeline.Value
import Idealize.ShloMosaic.Lib.ValueLayout

set_option maxRecDepth 16384

noncomputable section

open scoped BigOperators

/-! # The first pallas_call: the feature transform, block by block

Grid point `t` (of 20) takes rows `5000 t … 5000 t + 4999` of the node features and the whole weight matrix, and writes the
product of the two into the same rows of the result. A row of a matrix product depends only on that row of the left
factor, so what point `t` writes is block `t` of the whole product `featProd x w`; the twenty blocks tile the result. -/

namespace Cert.Gcn.Region0

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem origin2 : (![0, 0] : Fin 2 → Nat) = fun _ => 0 := funext fun a => by fin_cases a <;> rfl

/-- The body's value at an entry of the block: the sum over the contracted axis (a change of float format is the identity
    on the extended reals). -/
theorem pay_apply (x0 : Vec Ideal S5000x128 .f32) (x1 : Vec Ideal S128x128 .f32) (j : S5000x128.Idx) :
    k0_pay1 x0 x1 j = ∑ k : Fin 128, x0 (ix2 (j 0) k) * x1 (ix2 k (j 1)) := by
  unfold k0_pay1
  exact Cert.PlainDot.matmul_zero_apply (M := 5000) (K := 128) (N := 128)
    dot_S5000x128_S128x128_S5000x128_1_0_0_1_n_n rfl none _ _ j

/-- An entry of the body's block is the whole product's entry at the matching row, once the block's rows and the
    weights are the arrays' there. -/
theorem block_entry (X : S100000x128.Idx → EReal) (W : S128x128.Idx → EReal)
    (x0 : Vec Ideal S5000x128 .f32) (x1 : Vec Ideal S128x128 .f32) (i : S100000x128.Idx) (j : S5000x128.Idx)
    (h0 : ∀ k : Fin 128, x0 (ix2 (j 0) k) = X (ix2 (i 0) k))
    (h1 : ∀ k : Fin 128, x1 (ix2 k (j 1)) = W (ix2 k (i 1))) :
    k0_pay1 x0 x1 j = featProd X W i := by
  rw [pay_apply]
  unfold featProd
  exact Finset.sum_congr rfl fun k _ => by rw [h0, h1]

/-- Where the windows sit at point `t`: the row blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t
      = ((cfg0.win 2).blk t).view.read (Elt Ideal) (featProd (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := idx_facts t
  funext j
  show k0_pay1 (iblk0 V c 0 t) (iblk0 V c 1 t) j
    = featProd (V c main_arg0) (V c main_arg2) (((cfg0.win 2).blk t).view.emb j)
  refine block_entry (V c main_arg0) (V c main_arg2) (iblk0 V c 0 t) (iblk0 V c 1 t) (((cfg0.win 2).blk t).view.emb j) j
    (fun k => ?_) (fun k => ?_)
  · show V c main_arg0 (((cfg0.win 0).blk t).view.emb (ix2 (j 0) k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k (j 1))) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An entry of the result lies in point `t`'s block iff each coordinate lies in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Row `r` of the result is written by point `r / 5000`: the twenty row blocks tile the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by
    show _ < grid0.N
    rw [N_0]; omega
  obtain ⟨-, -, -, -, e4, e5⟩ := idx_facts ⟨(i 0).val / 5000, hN⟩
  have e4' : win0_2.index ⟨(i 0).val / 5000, hN⟩ (0 : Fin 2) = (i 0).val / 5000 := e4
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    omega

/-- After the first pallas_call its result array holds the whole product of the two arrays it was entered with. -/
theorem final (c : Dev nD) : (dat0 V c).arrAt 2 cfg0.N = featProd (V c main_arg0) (V c main_arg2) :=
  (dat0 V c).arrAt_eq_of_cover 2 _ (fun t _ => flushed_eq V c t) cover

end Cert.Gcn.Region0

end
-- ==== Proof.Region1.lean ====
import proofs.«163805_j23673859735705_1_alg».proof.Proof.Gen.KernelIdeal.Frame
import proofs.«163805_j23673859735705_1_alg».proof.Proof.LibPlainDot
import proofs.«163805_j23673859735705_1_alg».proof.Proof.Spec
import Idealize.ShloMosaic.Lib.Pipeline.Value
import Idealize.ShloMosaic.Lib.ValueLayout

set_option maxRecDepth 16384

noncomputable section

open scoped BigOperators

/-! # The second pallas_call: bias, rectifier and the second transform, block by block

Grid point `t` (of 20) takes rows `5000 t … 5000 t + 4999` of the aggregated features, the bias row and the whole second
weight matrix; it adds the bias to every row, cuts negatives to zero and multiplies by the weights. An entry of the
result depends only on its own row of the features, so what point `t` writes is block `t` of `hiddenProd h b w`, and the
twenty blocks tile the result. -/

namespace Cert.Gcn.Region1

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem origin2 : (![0, 0] : Fin 2 → Nat) = fun _ => 0 := funext fun a => by fin_cases a <;> rfl

/-- The body's value at entry `(p, q)` of the block: the rectified biased row against the weights' column (casts between
    float formats and to the same shape are the identity; the one bias row is read on every row). -/
theorem pay_apply (x0 : Vec Ideal S5000x128 .f32) (x1 : Vec Ideal S1x128 .f32) (x2 : Vec Ideal S128x64 .f32)
    (p : Fin 5000) (q : Fin 64) :
    k1_pay1 x0 x1 x2 (ix2 p q)
      = ∑ k : Fin 128, max (x0 (ix2 p k) + x1 (ix2 (0 : Fin 1) k)) 0 * x2 (ix2 k q) := by
  unfold k1_pay1
  refine (Cert.PlainDot.matmul_zero_apply (M := 5000) (K := 128) (N := 64)
    dot_S5000x128_S128x64_S5000x64_1_0_0_1_n_n rfl none _ _ (ix2 p q)).trans ?_
  refine Finset.sum_congr rfl fun k _ => ?_
  show max (shapeCast S5000x128 x0 _ (ix2 p k) + broadcastTo S5000x128 (shapeCast S1x128 x1 _) _ (ix2 p k))
      (Ideal.ofBits .f32 0x00000000#32) * x2 (ix2 k q) = _
  rw [shapeCast_self, shapeCast_self, broadcastTo_1b_ab_apply, Ideal.ofBits_zero_f32]

/-- An entry of the body's block is `hiddenProd`'s entry at the matching row, once the block's rows, the bias row and the
    weights are the arrays' there. -/
theorem block_entry (H : S100000x128.Idx → EReal) (B : Fin 128 → EReal) (W : S128x64.Idx → EReal)
    (x0 : Vec Ideal S5000x128 .f32) (x1 : Vec Ideal S1x128 .f32) (x2 : Vec Ideal S128x64 .f32)
    (i : S100000x64.Idx) (j : S5000x64.Idx)
    (h0 : ∀ k : Fin 128, x0 (ix2 (j 0) k) = H (ix2 (i 0) k))
    (h1 : ∀ k : Fin 128, x1 (ix2 (0 : Fin 1) k) = B k)
    (h2 : ∀ k : Fin 128, x2 (ix2 k (j 1)) = W (ix2 k (i 1))) :
    k1_pay1 x0 x1 x2 j = hiddenProd H B W i := by
  obtain ⟨p, q, rfl⟩ : ∃ (p : Fin 5000) (q : Fin 64), j = ix2 p q := ⟨j 0, j 1, eq_ix2 j⟩
  rw [pay_apply]
  unfold hiddenProd
  refine Finset.sum_congr rfl fun k _ => ?_
  have e0 : x0 (ix2 p k) = H (ix2 (i 0) k) := h0 k
  have e2 : x2 (ix2 k q) = W (ix2 k (i 1)) := h2 k
  rw [e0, h1 k, e2]

/-- Where the windows sit at point `t`: the row blocks move with the point, the bias and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `hiddenProd` of the arrays the call was entered with. -/
theorem flushed_eq (c : Dev nD) (t : Fin cfg1.N) :
    (dat1 V c).flushed 3 t
      = ((cfg1.win 3).blk t).view.read (Elt Ideal)
          (hiddenProd (V c main_v44) (fun k => V c main_v45 (ix2 (0 : Fin 1) k)) (V c main_arg4)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S1x128) origin2,
    View.ld_unit_zero (S := S128x64) origin2]
  obtain ⟨e0, e1, e2, e3, e4, e5, e6, e7⟩ := idx_facts t
  funext j
  show k1_pay1 (iblk1 V c 0 t) (iblk1 V c 1 t) (iblk1 V c 2 t) j
    = hiddenProd (V c main_v44) (fun k => V c main_v45 (ix2 (0 : Fin 1) k)) (V c main_arg4)
        (((cfg1.win 3).blk t).view.emb j)
  refine block_entry (V c main_v44) (fun k => V c main_v45 (ix2 (0 : Fin 1) k)) (V c main_arg4)
    (iblk1 V c 0 t) (iblk1 V c 1 t) (iblk1 V c 2 t) (((cfg1.win 3).blk t).view.emb j) j
    (fun k => ?_) (fun k => ?_) (fun k => ?_)
  · show V c main_v44 (((cfg1.win 0).blk t).view.emb (ix2 (j 0) k)) = _
    refine congrArg (V c main_v44) (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 128 + 1 * k.val = k.val
      omega
  · show V c main_v45 (((cfg1.win 1).blk t).view.emb (ix2 (0 : Fin 1) k)) = _
    refine congrArg (V c main_v45) (funext fun a => Fin.ext ?_)
    match a with
    | ⟨0, _⟩ =>
      show win1_1.index t (0 : Fin 2) * 1 + 1 * 0 = 0
      omega
    | ⟨1, _⟩ =>
      show win1_1.index t (1 : Fin 2) * 128 + 1 * k.val = k.val
      omega
  · show V c main_arg4 (((cfg1.win 2).blk t).view.emb (ix2 k (j 1))) = _
    refine congrArg (V c main_arg4) (funext fun a => Fin.ext ?_)
    match a with
    | ⟨0, _⟩ =>
      show win1_2.index t (0 : Fin 2) * 128 + 1 * k.val = k.val
      omega
    | ⟨1, _⟩ =>
      show win1_2.index t (1 : Fin 2) * 64 + 1 * (j 1).val = win1_3.index t (1 : Fin 2) * 64 + 1 * (j 1).val
      omega

/-- An entry of the result lies in point `t`'s block iff each coordinate lies in the block's range on its axis. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v46).slice (win1_3.rect t)).set ↔ _
  rw [View.set_slice_whole, Rect.mem_set_unit]
  exact Iff.rfl

/-- Row `r` of the result is written by point `r / 5000`: the twenty row blocks tile the array. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 5000 < cfg1.N := by
    show _ < grid1.N
    rw [N_1]; omega
  obtain ⟨-, -, -, -, -, -, e6, e7⟩ := idx_facts ⟨(i 0).val / 5000, hN⟩
  have e6' : win1_3.index ⟨(i 0).val / 5000, hN⟩ (0 : Fin 2) = (i 0).val / 5000 := e6
  refine ⟨⟨(i 0).val / 5000, hN⟩, flush1_3 _, ?_⟩
  rw [mem_blk]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 64 ≤ (i 1).val
      ∧ (i 1).val < win1_3.index ⟨(i 0).val / 5000, hN⟩ (1 : Fin 2) * 64 + 64
    omega

/-- After the second pallas_call its result array holds `hiddenProd` of the three arrays it was entered with. -/
theorem final (c : Dev nD) :
    (dat1 V c).arrAt 3 cfg1.N
      = hiddenProd (V c main_v44) (fun k => V c main_v45 (ix2 (0 : Fin 1) k)) (V c main_arg4) :=
  (dat1 V c).arrAt_eq_of_cover 3 _ (fun t _ => flushed_eq V c t) cover

end Cert.Gcn.Region1

end
-- ==== Proof.Region2.lean ====
import proofs.«163805_j23673859735705_1_alg».proof.Proof.Gen.KernelIdeal.Frame
import proofs.«163805_j23673859735705_1_alg».proof.Proof.LibPlainDot
import proofs.«163805_j23673859735705_1_alg».proof.Proof.Spec
import Idealize.ShloMosaic.Lib.Pipeline.Value
import Idealize.ShloMosaic.Lib.ValueLayout

set_option maxRecDepth 16384

noncomputable section

open scoped BigOperators

/-! # The third pallas_call: the last bias, block by block

Grid point `t` (of 20) takes rows `5000 t … 5000 t + 4999` of the second aggregation and the bias row and adds the bias
to every row; what it writes is block `t` of `addBias p b`, and the twenty blocks tile the result. -/

namespace Cert.Gcn.Region2

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem origin2 : (![0, 0] : Fin 2 → Nat) = fun _ => 0 := funext fun a => by fin_cases a <;> rfl

/-- The body's value at an entry of the block: the entry plus the bias of its column (a cast to the same shape is the
    identity; the one bias row is read on every row). -/
theorem pay_apply (x0 : Vec Ideal S5000x64 .f32) (x1 : Vec Ideal S1x64 .f32) (j : S5000x64.Idx) :
    k2_pay1 x0 x1 j = x0 j + x1 (ix2 (0 : Fin 1) (j 1)) := by
  obtain ⟨p, q, rfl⟩ : ∃ (p : Fin 5000) (q : Fin 64), j = ix2 p q := ⟨j 0, j 1, eq_ix2 j⟩
  unfold k2_pay1
  simp only [addf_apply, shapeCast_self]
  rw [broadcastTo_1b_ab_apply]

/-- An entry of the body's block is `addBias`'s entry at the matching row, once the block's entry and the bias row are
    the arrays' there. -/
theorem block_entry (P : S100000x64.Idx → EReal) (B : Fin 64 → EReal)
    (x0 : Vec Ideal S5000x64 .f32) (x1 : Vec Ideal S1x64 .f32) (i : S100000x64.Idx) (j : S5000x64.Idx)
    (h0 : x0 j = P i) (h1 : x1 (ix2 (0 : Fin 1) (j 1)) = B (i 1)) :
    k2_pay1 x0 x1 j = addBias P B i := by
  rw [pay_apply, h0, h1]
  rfl

/-- Where the windows sit at point `t`: the row blocks move with the point, the bias stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `addBias` of the arrays the call was entered with. -/
theorem flushed_eq (c : Dev nD) (t : Fin cfg2.N) :
    (dat2 V c).flushed 2 t
      = ((cfg2.win 2).blk t).view.read (Elt Ideal)
          (addBias (V c main_v56) (fun q => V c main_v57 (ix2 (0 : Fin 1) q))) := by
  show (cfg2.win 2).cut (grid2.coords t) ((dat2 V c).after 2 t) = _
  rw [after2_2]
  unfold out2_2
  rw [View.canon_unit_zero origin2]
  simp only [View.ld_unit_zero (S := S5000x64) origin2, View.ld_unit_zero (S := S1x64) origin2]
  obtain ⟨e0, e1, e2, e3, e4, e5⟩ := idx_facts t
  funext j
  show k2_pay1 (iblk2 V c 0 t) (iblk2 V c 1 t) j
    = addBias (V c main_v56) (fun q => V c main_v57 (ix2 (0 : Fin 1) q)) (((cfg2.win 2).blk t).view.emb j)
  refine block_entry (V c main_v56) (fun q => V c main_v57 (ix2 (0 : Fin 1) q))
    (iblk2 V c 0 t) (iblk2 V c 1 t) (((cfg2.win 2).blk t).view.emb j) j ?_ ?_
  · show V c main_v56 (((cfg2.win 0).blk t).view.emb j) = _
    refine congrArg (V c main_v56) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 64 + 1 * (j 1).val = win2_2.index t (1 : Fin 2) * 64 + 1 * (j 1).val
      omega
  · show V c main_v57 (((cfg2.win 1).blk t).view.emb (ix2 (0 : Fin 1) (j 1))) = _
    refine congrArg (V c main_v57) (funext fun a => Fin.ext ?_)
    match a with
    | ⟨0, _⟩ =>
      show win2_1.index t (0 : Fin 2) * 1 + 1 * 0 = 0
      omega
    | ⟨1, _⟩ =>
      show win2_1.index t (1 : Fin 2) * 64 + 1 * (j 1).val = win2_2.index t (1 : Fin 2) * 64 + 1 * (j 1).val
      omega

/-- An entry of the result lies in point `t`'s block iff each coordinate lies in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v58).slice (win2_2.rect t)).set ↔ _
  rw [View.set_slice_whole, Rect.mem_set_unit]
  exact Iff.rfl

/-- Row `r` of the result is written by point `r / 5000`: the twenty row blocks tile the array. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 5000 < cfg2.N := by
    show _ < grid2.N
    rw [N_2]; omega
  obtain ⟨-, -, -, -, e4, e5⟩ := idx_facts ⟨(i 0).val / 5000, hN⟩
  have e4' : win2_2.index ⟨(i 0).val / 5000, hN⟩ (0 : Fin 2) = (i 0).val / 5000 := e4
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    omega
  | ⟨1, _⟩ =>
    show win2_2.index ⟨(i 0).val / 5000, hN⟩ (1 : Fin 2) * 64 ≤ (i 1).val
      ∧ (i 1).val < win2_2.index ⟨(i 0).val / 5000, hN⟩ (1 : Fin 2) * 64 + 64
    omega

/-- After the third pallas_call its result array holds `addBias` of the two arrays it was entered with. -/
theorem final (c : Dev nD) :
    (dat2 V c).arrAt 2 cfg2.N = addBias (V c main_v56) (fun q => V c main_v57 (ix2 (0 : Fin 1) q)) :=
  (dat2 V c).arrAt_eq_of_cover 2 _ (fun t _ => flushed_eq V c t) cover

end Cert.Gcn.Region2

end
-- ==== Proof.Chain.lean ====
import proofs.«163805_j23673859735705_1_alg».proof.Proof.Gen.ReferenceIdeal

/-! # The edge-list arithmetic both programs share

Between the dense steps both programs run the same host operations on the edge list `e` (row 0 the sources, row 1 the
destinations): the self loops appended, a negative index wrapped, the degrees by a scatter-add of ones, the inverse
square roots, the per-edge normalisation, and the two aggregations — gather the rows at the sources, (scale,) scatter-add
them at the destinations. They are named here once, for any float family, so that the comparison of the two programs
never opens a gather or a scatter: it only needs the dense steps' results to agree. -/

noncomputable section

namespace Cert.Gcn

open Idealize.ShloMosaic Cert.ReferenceIdeal Cert.ReferenceIdeal.Gen

variable {F : FTy → Type} [FloatOps F]

/-- The edges' sources: row 0 of the edge list. -/
def srcE (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edges' destinations: row 1 of the edge list. -/
def dstE (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A list of edge ends with one self loop per node appended. -/
def withLoops (v : (⟨S1600000, .i32⟩ : BufTy).Contents (Elt F)) : (⟨S1700000, .i32⟩ : BufTy).Contents (Elt F) :=
  concatenate S1700000 0 [⟨S1600000, v⟩, ⟨S100000, iotaInDim S100000 32 0⟩] concatenates_S1600000_S100000_S1700000_d0

/-- A negative node index counted from the end, over the list with self loops. -/
def wrapL (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- A negative node index counted from the end, over the plain edge list. -/
def wrapE (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- The degree of every node: ones scatter-added at the destinations, self loops included. -/
def degV (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (withLoops (dstE e)))
    (broadcastInDim S1700000 ![] bcast_S_S1700000 (constant S_ .f32 0x3F800000#32))

/-- The degree to the power -1/2 where the degree is positive, zero elsewhere. -/
def dinvV (e : (⟨S2x1600000, .i32⟩ : BufTy).Contents (Elt F)) : (⟨S100000, .f32⟩ : BufTy).Contents (Elt F) :=
  select (cmpf (F := F) .ogt (degV e) (broadcastInDim S100000 ![] bcast_S_S100000 (constant S_ .f32 0x00000000#32)))
    (Host.powf (degV e) (broadcastInDim S100000 ![] bcast_S_S100000 (constant S_ .f32 0xBF000000#32)))
    (broadcastInDim S100000 ![] bcast_S_S100000 (id (constant S_ .f32 0x00000000#32)))

/-- The weight of every edge (and self loop): the product of the two ends' inverse square roots. -/
def normV (e : (⟨S2x1600000, .i32⟩ : BufTy).Contents (Elt F)) : (⟨S1700000, .f32⟩ : BufTy).Contents (Elt F) :=
  mulf
    (Host.gather gather_S100000_S1700000x1_S1700000_n_0_n_n_0_1_1 (dinvV e)
      (broadcastInDim S1700000x1 ![0] bcast_S1700000_S1700000x1_0 (wrapL (withLoops (srcE e)))))
    (Host.gather gather_S100000_S1700000x1_S1700000_n_0_n_n_0_1_1 (dinvV e)
      (broadcastInDim S1700000x1 ![0] bcast_S1700000_S1700000x1_0 (wrapL (withLoops (dstE e)))))

/-- The first aggregation: the rows of `h` at the sources, each scaled by its edge's weight, summed at the destinations. -/
def agg1 (e : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (withLoops (dstE e)))
    (mulf
      (Host.gather gather_S100000x128_S1700000x1_S1700000x128_1_0_n_n_0_1_1128 h
        (broadcastInDim S1700000x1 ![0] bcast_S1700000_S1700000x1_0 (wrapL (withLoops (srcE e)))))
      (broadcastInDim S1700000x128 ![0, 1] bcast_S1700000x1_S1700000x128_0_1
        (broadcastInDim S1700000x1 ![0] bcast_S1700000_S1700000x1_0 (normV e))))

/-- The second aggregation: the rows of `o` at the sources summed at the destinations, no self loops, no weights. -/
def agg2 (e : (⟨S2x1600000, .i32⟩ : BufTy).Contents (Elt F)) (o : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dstE e))
    (Host.gather gather_S100000x64_S1600000x1_S1600000x64_1_0_n_n_0_1_164 o
      (broadcastInDim S1600000x1 ![0] bcast_S1600000_S1600000x1_0 (wrapE (srcE e))))

end Cert.Gcn

end
-- ==== Proof.Walk.lean ====
import proofs.«163805_j23673859735705_1_alg».proof.Proof.Gen.KernelIdeal.Frame
import proofs.«163805_j23673859735705_1_alg».proof.Proof.Chain

/-! # The kernel program's host stretches, read back to the arguments

The kernel program's @main is five host stretches around three pallas_calls. Here each buffer a later step reads is
followed back through the stretches and calls that do not write it, and each buffer a stretch computes is read as the
shared edge-list arithmetic (`srcE`, `dstE`, `withLoops`, `normV`, `agg1`, `agg2`) of the edge list and of the preceding
call's result. Nothing here opens a gather or a scatter: a stretch's composed term is the shared function by unfolding
names only. All of it holds for any float family. -/

set_option maxRecDepth 16384

noncomputable section

namespace Cert.Gcn.Walk

open Idealize.ShloMosaic Idealize.ShloMosaic.TcCoe Idealize.SL.Sem
open Cert.KernelIdeal Cert.KernelIdeal.Gen Cert.Gcn

variable {F : FTy → Type} [FloatOps F]
variable (m : (ℓ : Loc nD τ sig) → Buf (Elt F) ℓ) (ρ : Dev nD → PrngReg)

/-- A buffer that no operation of the named stretch writes holds after the stretch what it held before. -/
local macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## What the first stretch computes from the edge list -/

theorem v1_at1 (c : Dev nD) : W1 m ρ c (Proc.devRef .tc main_v1) = srcE (m ((c : Thread nD τ).loc main_arg1)) := by
  show StableHlo.after hostOps0 (W0 m ρ c) (Proc.devRef .tc main_v1) = _
  after_results; rfl

theorem v3_at1 (c : Dev nD) : W1 m ρ c (Proc.devRef .tc main_v3) = dstE (m ((c : Thread nD τ).loc main_arg1)) := by
  show StableHlo.after hostOps0 (W0 m ρ c) (Proc.devRef .tc main_v3) = _
  after_results; rfl

theorem v5_at1 (c : Dev nD) : W1 m ρ c (Proc.devRef .tc main_v5) = withLoops (srcE (m ((c : Thread nD τ).loc main_arg1))) := by
  show StableHlo.after hostOps0 (W0 m ρ c) (Proc.devRef .tc main_v5) = _
  after_results; rfl

theorem v6_at1 (c : Dev nD) : W1 m ρ c (Proc.devRef .tc main_v6) = withLoops (dstE (m ((c : Thread nD τ).loc main_arg1))) := by
  show StableHlo.after hostOps0 (W0 m ρ c) (Proc.devRef .tc main_v6) = _
  after_results; rfl

/-! ## The buffers the first pallas_call is entered with, and what it leaves alone -/

set_option maxHeartbeats 4000000 in
/-- The per-edge weights, computed by the three stretches before the first call. -/
theorem v30_at3 (c : Dev nD) : W3 m ρ c (Proc.devRef .tc main_v30) = normV (m ((c : Thread nD τ).loc main_arg1)) := by
  show StableHlo.after hostOps0_2 (StableHlo.after hostOps0_1 (StableHlo.after hostOps0 (W0 m ρ c)))
    (Proc.devRef .tc main_v30) = _
  after_results; rfl

theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = _ := rfl

theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = _ := rfl

theorem v5_at4 (c : Dev nD) : W4 m ρ c (Proc.devRef .tc main_v5) = withLoops (srcE (m ((c : Thread nD τ).loc main_arg1))) :=
  calc W4 m ρ c (Proc.devRef .tc main_v5)
    _ = W3 m ρ c (Proc.devRef .tc main_v5) := W4_of_ne m ρ c main_v5 (by decide)
    _ = W2 m ρ c (Proc.devRef .tc main_v5) := by host_keeps hostOps0_2
    _ = W1 m ρ c (Proc.devRef .tc main_v5) := by host_keeps hostOps0_1
    _ = _ := v5_at1 m ρ c

theorem v6_at4 (c : Dev nD) : W4 m ρ c (Proc.devRef .tc main_v6) = withLoops (dstE (m ((c : Thread nD τ).loc main_arg1))) :=
  calc W4 m ρ c (Proc.devRef .tc main_v6)
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1
    _ = _ := v6_at1 m ρ c

theorem v30_at4 (c : Dev nD) : W4 m ρ c (Proc.devRef .tc main_v30) = normV (m ((c : Thread nD τ).loc main_arg1)) :=
  (W4_of_ne m ρ c main_v30 (by decide)).trans (v30_at3 m ρ c)

theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = _ := rfl

theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = _ := rfl

theorem v1_at4 (c : Dev nD) : W4 m ρ c (Proc.devRef .tc main_v1) = srcE (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by host_keeps hostOps0_2
    _ = W1 m ρ c (Proc.devRef .tc main_v1) := by host_keeps hostOps0_1
    _ = _ := v1_at1 m ρ c

theorem v3_at4 (c : Dev nD) : W4 m ρ c (Proc.devRef .tc main_v3) = dstE (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = _ := v3_at1 m ρ c

theorem arg5_at4 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = _ := rfl

/-! ## The stretch between the first and the second call -/

set_option maxHeartbeats 4000000 in
/-- The first aggregation, of whatever the first call left in its result array. -/
theorem v44_at5 (c : Dev nD) :
    W5 m ρ c (Proc.devRef .tc main_v44) = agg1 (m ((c : Thread nD τ).loc main_arg1)) (W4 m ρ c (Proc.devRef .tc main_v31)) := by
  show StableHlo.after hostOps1 (W4 m ρ c) (Proc.devRef .tc main_v44) = _
  after_results
  rw [v5_at4 m ρ c, v6_at4 m ρ c, v30_at4 m ρ c]
  rfl

/-- The first bias as a one-row matrix. -/
theorem v45_at5 (c : Dev nD) :
    W5 m ρ c (Proc.devRef .tc main_v45)
      = shapeCast S1x128 (m ((c : Thread nD τ).loc main_arg3) : (⟨S128, .f32⟩ : BufTy).Contents (Elt F)) shapeCasts_S128_S1x128 := by
  show StableHlo.after hostOps1 (W4 m ρ c) (Proc.devRef .tc main_v45) = _
  after_results
  rw [arg3_at4 m ρ c]
  rfl

theorem arg4_at5 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps hostOps1
    _ = _ := arg4_at4 m ρ c

theorem v1_at6 (c : Dev nD) : W6 m ρ c (Proc.devRef .tc main_v1) = srcE (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := by host_keeps hostOps1
    _ = _ := v1_at4 m ρ c

theorem v3_at6 (c : Dev nD) : W6 m ρ c (Proc.devRef .tc main_v3) = dstE (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by host_keeps hostOps1
    _ = _ := v3_at4 m ρ c

theorem arg5_at6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = _ := arg5_at4 m ρ c

/-! ## The stretch between the second and the third call -/

set_option maxHeartbeats 4000000 in
/-- The second aggregation, of whatever the second call left in its result array. -/
theorem v56_at7 (c : Dev nD) :
    W7 m ρ c (Proc.devRef .tc main_v56) = agg2 (m ((c : Thread nD τ).loc main_arg1)) (W6 m ρ c (Proc.devRef .tc main_v46)) := by
  show StableHlo.after hostOps2 (W6 m ρ c) (Proc.devRef .tc main_v56) = _
  after_results
  rw [v1_at6 m ρ c, v3_at6 m ρ c]
  rfl

/-- The second bias as a one-row matrix. -/
theorem v57_at7 (c : Dev nD) :
    W7 m ρ c (Proc.devRef .tc main_v57)
      = shapeCast S1x64 (m ((c : Thread nD τ).loc main_arg5) : (⟨S64, .f32⟩ : BufTy).Contents (Elt F)) shapeCasts_S64_S1x64 := by
  show StableHlo.after hostOps2 (W6 m ρ c) (Proc.devRef .tc main_v57) = _
  after_results
  rw [arg5_at6 m ρ c]
  rfl

end Cert.Gcn.Walk

end
-- ==== Proof.Out.lean ====
import proofs.«163805_j23673859735705_1_alg».proof.Proof.Chain
import proofs.«163805_j23673859735705_1_alg».proof.Proof.Spec

/-! # The value both programs compute

On the extended reals: transform the features, aggregate over the weighted edges with self loops, add the first bias,
rectify and transform again, aggregate over the plain edges, add the second bias. -/

noncomputable section

namespace Cert.Gcn

open Idealize.ShloMosaic Idealize.ShloMosaic.ValueIdx Cert.ReferenceIdeal

/-- The two-layer graph convolution as one function of the six arguments. -/
def gcnOut (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S100000x64, .f32⟩ : BufTy).Contents (Elt Ideal) :=
  addBias (agg2 e (hiddenProd (agg1 e (featProd x w1)) (fun k => b1 (ix1 k)) w2)) (fun q => b2 (ix1 q))

end Cert.Gcn

end
-- ==== Proof.KernelValue.lean ====
import proofs.«163805_j23673859735705_1_alg».proof.Proof.KernelRun
import proofs.«163805_j23673859735705_1_alg».proof.Proof.Region0
import proofs.«163805_j23673859735705_1_alg».proof.Proof.Region1
import proofs.«163805_j23673859735705_1_alg».proof.Proof.Region2
import proofs.«163805_j23673859735705_1_alg».proof.Proof.Walk
import proofs.«163805_j23673859735705_1_alg».proof.Proof.Out

/-! # The kernel program computes `gcnOut`

The result array is what the third pallas_call leaves: `addBias` of the second aggregation and the one-row second bias.
The second aggregation is `agg2` of what the second call leaves: `hiddenProd` of the first aggregation, the one-row first
bias and the second weights. The first aggregation is `agg1` of what the first call leaves: `featProd` of the features and
the first weights. A bias made a one-row matrix reads at `(0, k)` the bias at `k`. -/

set_option maxRecDepth 16384

noncomputable section

namespace Cert.Gcn

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- What the first pallas_call leaves in its result array: the transformed features. -/
theorem v31_at4 (c : Dev nD) :
    W4 m ρ c (Proc.devRef .tc main_v31) = featProd (m ((c : Thread nD τ).loc main_arg0)) (m ((c : Thread nD τ).loc main_arg2)) := by
  have h : W4 m ρ c (Proc.devRef .tc main_v31) = (dat0 (V3 m ρ) c).arrAt 2 cfg0.N := W4_arr m ρ c 2
  have h0 : V3 m ρ c main_arg0 = (m ((c : Thread nD τ).loc main_arg0)) := Walk.arg0_at3 m ρ c
  have h2 : V3 m ρ c main_arg2 = (m ((c : Thread nD τ).loc main_arg2)) := Walk.arg2_at3 m ρ c
  rw [h, Region0.final (V3 m ρ) c, h0, h2]

/-- What the second pallas_call leaves in its result array. -/
theorem v46_at6 (c : Dev nD) :
    W6 m ρ c (Proc.devRef .tc main_v46)
      = hiddenProd (agg1 (m ((c : Thread nD τ).loc main_arg1)) (featProd (m ((c : Thread nD τ).loc main_arg0)) (m ((c : Thread nD τ).loc main_arg2)))) (fun k => (m ((c : Thread nD τ).loc main_arg3)) (ix1 k)) (m ((c : Thread nD τ).loc main_arg4)) := by
  have h : W6 m ρ c (Proc.devRef .tc main_v46) = (dat1 (V5 m ρ) c).arrAt 3 cfg1.N := W6_arr m ρ c 3
  have h44 : V5 m ρ c main_v44 = agg1 (m ((c : Thread nD τ).loc main_arg1)) (W4 m ρ c (Proc.devRef .tc main_v31)) := Walk.v44_at5 m ρ c
  have h45 : V5 m ρ c main_v45
      = shapeCast S1x128 ((m ((c : Thread nD τ).loc main_arg3)) : (⟨S128, .f32⟩ : BufTy).Contents (Elt Ideal)) shapeCasts_S128_S1x128 := Walk.v45_at5 m ρ c
  have h4 : V5 m ρ c main_arg4 = (m ((c : Thread nD τ).loc main_arg4)) := Walk.arg4_at5 m ρ c
  have h45' : (fun k : Fin 128 => V5 m ρ c main_v45 (ix2 (0 : Fin 1) k)) = fun k => (m ((c : Thread nD τ).loc main_arg3)) (ix1 k) := by
    funext k
    rw [h45]
    exact shapeCast_a_1a_apply _ _ (0 : Fin 1) k
  rw [h, Region1.final (V5 m ρ) c, h45', h44, h4, v31_at4 m ρ c]

/-- The kernel program's result array after the run is `gcnOut` of the arguments. -/
theorem kernel_result (c : Dev nD) :
    W8 m ρ c (Proc.devRef .tc main_v58)
      = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : W8 m ρ c (Proc.devRef .tc main_v58) = (dat2 (V7 m ρ) c).arrAt 2 cfg2.N := W8_arr m ρ c 2
  have h56 : V7 m ρ c main_v56 = agg2 (m ((c : Thread nD τ).loc main_arg1)) (W6 m ρ c (Proc.devRef .tc main_v46)) := Walk.v56_at7 m ρ c
  have h57 : V7 m ρ c main_v57
      = shapeCast S1x64 ((m ((c : Thread nD τ).loc main_arg5)) : (⟨S64, .f32⟩ : BufTy).Contents (Elt Ideal)) shapeCasts_S64_S1x64 := Walk.v57_at7 m ρ c
  have h57' : (fun q : Fin 64 => V7 m ρ c main_v57 (ix2 (0 : Fin 1) q)) = fun q => (m ((c : Thread nD τ).loc main_arg5)) (ix1 q) := by
    funext q
    rw [h57]
    exact shapeCast_a_1a_apply _ _ (0 : Fin 1) q
  rw [h, Region2.final (V7 m ρ) c, h57', h56, v46_at6 m ρ c]
  rfl

end Cert.Gcn

end
-- ==== Proof.RefSide.lean ====
import proofs.«163805_j23673859735705_1_alg».proof.Proof.RefRunP
import proofs.«163805_j23673859735705_1_alg».proof.Proof.Chain

set_option maxRecDepth 8192

noncomputable section

namespace Cert.Gcn

open Idealize.ShloMosaic Cert.ReferenceIdeal Cert.ReferenceIdeal.Gen Idealize.SL.Sem Idealize.ShloMosaic.TcCoe

variable {F : FTy → Type} [FloatOps F]

/-- The reference as one function of its six arguments: the two aggregations around the three dense steps. -/
def refOut (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S100000x64, .f32⟩ : BufTy).Contents (Elt F) :=
  addf
    (agg2 e (Host.dotGeneral dot_S100000x128_S128x64_S100000x64_1_0_0_1_n_n none
      (maximumf
        (addf (agg1 e (Host.dotGeneral dot_S100000x128_S128x128_S100000x128_1_0_0_1_n_n none x w1))
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32)))
      w2))
    (broadcastInDim S100000x64 ![0, 1] bcast_S1x64_S100000x64_0_1 (broadcastInDim S1x64 ![1] bcast_S64_S1x64_1 b2))

/-- The reference run's composed term is that function of the launch contents of the arguments. -/
theorem res_eq (m : (ℓ : Loc nD τ sig) → Buf (Elt F) ℓ) (c : Dev nD) :
    Cert.ReferenceIdeal.ValueP.res_main_v62 m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v62
  rfl

end Cert.Gcn

end
-- ==== Proof.RefValue.lean ====
import proofs.«163805_j23673859735705_1_alg».proof.Proof.RefSide
import proofs.«163805_j23673859735705_1_alg».proof.Proof.Out
import proofs.«163805_j23673859735705_1_alg».proof.Proof.LibPlainDot
import Idealize.ShloMosaic.Lib.Pipeline.Value

/-! # The reference computes `gcnOut`

Its two `dot_general`s are the sums over the contracted axis, its rectifier is the maximum with zero, and each bias, first
made a one-row matrix and then repeated on every row, is read at an entry as the bias of the entry's column. -/

set_option maxRecDepth 8192

noncomputable section

open scoped BigOperators

namespace Cert.Gcn

open Idealize.ShloMosaic Idealize.ShloMosaic.ValueIdx Cert.ReferenceIdeal Cert.ReferenceIdeal.Gen

/-- A bias of `n` entries made a one-row matrix and repeated over `r` rows, read at `(p, q)`, is the bias at `q`. -/
theorem bias_rows_apply {r n : ℕ} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![r, n]⟩ ![0, 1]) (p : Fin r) (q : Fin n) :
    broadcastInDim ⟨2, ![r, n]⟩ ![0, 1] h2 (broadcastInDim ⟨2, ![1, n]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if n = 1 then 0 else q.val
      split
      · have := q.isLt; omega
      · rfl)]
  rw [broadcastInDim_apply ![1] h1 _ (ix2 (0 : Fin 1) q) (ix1 q) (fun a => by
    match a with
    | ⟨0, _⟩ =>
      show q.val = if n = 1 then 0 else q.val
      split
      · have := q.isLt; omega
      · rfl)]

/-- The reference's first `dot_general` is the feature transform. -/
theorem dot1_eq (x : (⟨S100000x128, .f32⟩ : BufTy).Contents (Elt Ideal)) (w1 : (⟨S128x128, .f32⟩ : BufTy).Contents (Elt Ideal)) :
    Host.dotGeneral (F := Ideal) (φ₁ := .f32) (φ₂ := .f32) dot_S100000x128_S128x128_S100000x128_1_0_0_1_n_n none x w1
      = featProd x w1 := by
  funext j
  exact Cert.PlainDot.dotGeneral_apply (M := 100000) (K := 128) (N := 128)
    dot_S100000x128_S128x128_S100000x128_1_0_0_1_n_n rfl none .single x w1 j

/-- The reference's bias, rectifier and second `dot_general` are `hiddenProd`. -/
theorem dot2_eq (b1 : (⟨S128, .f32⟩ : BufTy).Contents (Elt Ideal)) (w2 : (⟨S128x64, .f32⟩ : BufTy).Contents (Elt Ideal))
    (h : (⟨S100000x128, .f32⟩ : BufTy).Contents (Elt Ideal)) :
    Host.dotGeneral (F := Ideal) (φ₁ := .f32) (φ₂ := .f32) dot_S100000x128_S128x64_S100000x64_1_0_0_1_n_n none
      (maximumf
        (addf h (broadcastInDim S100000x128 ![0, 1] bcast_S1x128_S100000x128_0_1 (broadcastInDim S1x128 ![1] bcast_S128_S1x128_1 b1)))
        (broadcastInDim S100000x128 ![] bcast_S_S100000x128 (constant S_ .f32 0x00000000#32))) w2
      = hiddenProd h (fun k => b1 (ix1 k)) w2 := by
  funext j
  refine (Cert.PlainDot.dotGeneral_apply (M := 100000) (K := 128) (N := 64)
    dot_S100000x128_S128x64_S100000x64_1_0_0_1_n_n rfl none .single _ w2 j).trans ?_
  unfold hiddenProd
  refine Finset.sum_congr rfl fun k _ => ?_
  obtain ⟨p, q, rfl⟩ : ∃ (p : Fin 100000) (q : Fin 64), j = ix2 p q := ⟨j 0, j 1, eq_ix2 j⟩
  simp only [maximumf_apply, addf_apply]
  rw [bias_rows_apply, broadcastInDim_apply ![] bcast_S_S100000x128 _ _ ix0 (fun a => a.elim0), constant_apply,
    Ideal.ofBits_zero_f32]

/-- A bias made a one-row matrix, repeated on every row and added, is `addBias`. -/
theorem addBias_eq (P : (⟨S100000x64, .f32⟩ : BufTy).Contents (Elt Ideal)) (b2 : (⟨S64, .f32⟩ : BufTy).Contents (Elt Ideal)) :
    addf (F := Ideal) (φ := .f32) P
        (broadcastInDim S100000x64 ![0, 1] bcast_S1x64_S100000x64_0_1 (broadcastInDim S1x64 ![1] bcast_S64_S1x64_1 b2))
      = addBias P (fun q => b2 (ix1 q)) := by
  funext j
  obtain ⟨p, q, rfl⟩ : ∃ (p : Fin 100000) (q : Fin 64), j = ix2 p q := ⟨j 0, j 1, eq_ix2 j⟩
  rw [addf_apply, bias_rows_apply]
  rfl

/-- The reference, as composed from its operations, is `gcnOut` of its arguments. -/
theorem refOut_eq (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    refOut (F := Ideal) x e w1 b1 w2 b2 = gcnOut x e w1 b1 w2 b2 := by
  unfold refOut gcnOut
  rw [dot1_eq, dot2_eq]
  exact addBias_eq _ b2

end Cert.Gcn

end
-- ==== Proof.lean ====
/- A two-layer graph convolution on 100000 nodes and 1600000 edges: the kernel program carries out the three dense steps
   (features times weights; bias, rectifier and the second product; the last bias) as three pallas_calls over row blocks
   of 5000 nodes, the reference as whole-array host operations; the edge-list arithmetic between the dense steps (degrees,
   normalisation, gathers, scatter-adds) is the same host text in both.

   On the extended reals both results are `Cert.Gcn.gcnOut` of the six arguments. A row of a matrix product depends only on
   the same row of the left factor, so a product computed block of rows by block of rows is the whole product; a change of
   float format is the identity; a bias made a one-row matrix and repeated on every row is the bias of the entry's column.
   No law of arithmetic beyond these readings is used: the two sides are the same sums of the same terms, so the
   precondition (finite inputs) is never opened.

   The kernel programs' frames are the generated ones; the reference's frame is its run with the result dropped; the
   idealization rewrote nothing, so `preserves` asks nothing. -/
import proofs.«163805_j23673859735705_1_alg».proof.Defs
import proofs.«163805_j23673859735705_1_alg».proof.Proof.Gen.Kernel
import proofs.«163805_j23673859735705_1_alg».proof.Proof.Gen.Kernel.Frame
import proofs.«163805_j23673859735705_1_alg».proof.Proof.Gen.KernelIdeal
import proofs.«163805_j23673859735705_1_alg».proof.Proof.Gen.KernelIdeal.Frame
import proofs.«163805_j23673859735705_1_alg».proof.Proof.Gen.ReferenceIdeal
import proofs.«163805_j23673859735705_1_alg».proof.Proof.Gen.Pre_finite_inputs
import proofs.«163805_j23673859735705_1_alg».proof.Proof.KernelValue
import proofs.«163805_j23673859735705_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with `gcnOut` of the arguments in their result arrays. -/
theorem algebraic : Cert.algebraic_KernelIdeal_ReferenceIdeal := by
  intro m ρ m' ρ' _ hagree
  refine ⟨fun c => Cert.Gcn.gcnOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.kernel_result m ρ c), (h c).2⟩)
      (Cert.KernelIdeal.GenP.run_result (F := Ideal) m ρ)
  · refine (θ_run Cert.ReferenceIdeal.defs _ _).mono (fun r h c => ⟨?_, (h c).2⟩)
      (Cert.ReferenceIdeal.ValueP.run (F := Ideal) m' ρ')
    rw [(h c).1, Cert.Gcn.res_eq, Cert.Gcn.refOut_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
